-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S168x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x200 : Shape := ⟨2, ![512, 200]⟩
abbrev S168x2048 : Shape := ⟨2, ![168, 2048]⟩
abbrev S_ : Shape := ⟨0, ![]⟩

class Facts : Prop where
  bcast_S_S168x2048 : S_.BroadcastsInDim S168x2048 (![] : Fin 0 → Fin S168x2048.rank)
  reducesTo_S168x2048_S_d0_1 : S168x2048.ReducesTo [0, 1] S_
  h_S_ : 0 < S_.numel
  bcast_S_S512x200 : S_.BroadcastsInDim S512x200 (![] : Fin 0 → Fin S512x200.rank)
  reducesTo_S512x200_S_d0_1 : S512x200.ReducesTo [0, 1] S_

variable [Facts]

def fn {F : FTy → Type} [FloatOps F] (main_arg0 : IVec S512x200 32) (main_arg1 : FVec F S168x2048 .f32) : IVec S_ 1 :=
  let main_v0 : FVec F S168x2048 .f32 := Host.absf main_arg1
  let main_cst : FVec F S_ .f32 := constant S_ .f32 0x7F800000#32
  let main_v1 : FVec F S168x2048 .f32 := broadcastInDim S168x2048 ![] bcast_S_S168x2048 main_cst
  let main_v2 : IVec S168x2048 1 := cmpf .olt main_v0 main_v1
  let main_c : IVec S_ 1 := constantI S_ 1 1#1
  let main_v3 : IVec S_ 1 := (fun x v => Host.reduce IntOp.andi x v reducesTo_S168x2048_S_d0_1 h_S_) main_v2 main_c
  let main_c_0 : IVec S_ 32 := constantI S_ 32 0#32
  let main_v4 : IVec S512x200 32 := broadcastInDim S512x200 ![] bcast_S_S512x200 main_c_0
  let main_v5 : IVec S512x200 1 := cmpi .sge main_arg0 main_v4
  let main_c_1 : IVec S_ 1 := constantI S_ 1 1#1
  let main_v6 : IVec S_ 1 := (fun x v => Host.reduce IntOp.andi x v reducesTo_S512x200_S_d0_1 h_S_) main_v5 main_c_1
  let main_v7 : IVec S_ 1 := andi main_v3 main_v6
  let main_c_2 : IVec S_ 32 := constantI S_ 32 168#32
  let main_v8 : IVec S512x200 32 := broadcastInDim S512x200 ![] bcast_S_S512x200 main_c_2
  let main_v9 : IVec S512x200 1 := cmpi .slt main_arg0 main_v8
  let main_c_3 : IVec S_ 1 := constantI S_ 1 1#1
  let main_v10 : IVec S_ 1 := (fun x v => Host.reduce IntOp.andi x v reducesTo_S512x200_S_d0_1 h_S_) main_v9 main_c_3
  let main_v11 : IVec S_ 1 := andi main_v7 main_v10
  main_v11
-- ==== Kernel.lean ====
abbrev S512x200 : Shape := ⟨2, ![512, 200]⟩
abbrev S168x2048 : Shape := ⟨2, ![168, 2048]⟩
abbrev S168 : Shape := ⟨1, ![168]⟩
abbrev S168x1 : Shape := ⟨2, ![168, 1]⟩
abbrev S_ : Shape := ⟨0, ![]⟩
abbrev S102400x1 : Shape := ⟨2, ![102400, 1]⟩
abbrev S102400x2048 : Shape := ⟨2, ![102400, 2048]⟩
abbrev S1024x1 : Shape := ⟨2, ![1024, 1]⟩
abbrev S1024x2048 : Shape := ⟨2, ![1024, 2048]⟩
abbrev S1024x168 : Shape := ⟨2, ![1024, 168]⟩
abbrev S512x200x2048 : Shape := ⟨3, ![512, 200, 2048]⟩

abbrev nBuf : Space → Nat
  | .hbm => 15
  | .vmem => 9
  | .smem => 0
  | _ => 0

abbrev bufTy : (tb : Table) → Fin (tcTables nBuf tb) → BufTy
  | .hbm, ⟨0, _⟩ => ⟨S512x200, .i32⟩
  | .hbm, ⟨1, _⟩ => ⟨S168x2048, .f32⟩
  | .hbm, ⟨2, _⟩ => ⟨S168x2048, .bf16⟩
  | .hbm, ⟨3, _⟩ => ⟨S168x2048, .bf16⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S512x200, .i32⟩
  | .hbm, ⟨8, _⟩ => ⟨S512x200, .i32⟩
  | .hbm, ⟨9, _⟩ => ⟨S_, .i32⟩
  | .hbm, ⟨10, _⟩ => ⟨S512x200, .i32⟩
  | .hbm, ⟨11, _⟩ => ⟨S512x200, .i32⟩
  | .hbm, ⟨12, _⟩ => ⟨S102400x1, .i32⟩
  | .hbm, ⟨13, _⟩ => ⟨S102400x2048, .f32⟩
  | .hbm, ⟨14, _⟩ => ⟨S512x200x2048, .f32⟩
  | .local _ .vmem, ⟨0, _⟩ => ⟨S168x2048, .f32⟩
  | .local _ .vmem, ⟨1, _⟩ => ⟨S168x2048, .bf16⟩
  | .local _ .vmem, ⟨2, _⟩ => ⟨S168x2048, .bf16⟩
  | .local _ .vmem, ⟨3, _⟩ => ⟨S1024x1, .i32⟩
  | .local _ .vmem, ⟨4, _⟩ => ⟨S1024x1, .i32⟩
  | .local _ .vmem, ⟨5, _⟩ => ⟨S168x2048, .bf16⟩
  | .local _ .vmem, ⟨6, _⟩ => ⟨S168x2048, .bf16⟩
  | .local _ .vmem, ⟨7, _⟩ => ⟨S1024x2048, .f32⟩
  | .local _ .vmem, ⟨8, _⟩ => ⟨S1024x2048, .f32⟩
  | _, _ => ⟨S512x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S168x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S168x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S168x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S168x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S168x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S168x2048_S168x2048_0_0 : ∀ a, (![0, 0] : Fin 2 → Nat) a + S168x2048.size a ≤ S168x2048.size a
  h_S168x2048 : 0 < S168x2048.numel
  reduces_S168x2048_S168 : S168x2048.Reduces [1] S168
  shapeCasts_S168_S168x1 : S168.ShapeCasts S168x1
  broadcasts_S168x1_S168x2048 : S168x1.Broadcasts S168x2048
  bitsLt_bf16_f32 : FTy.bits .bf16 < FTy.bits .f32
  packedbf16_S168x2048_S168x2048_0_0 : (Rect.unit (s := S168x2048) ![0, 0] S168x2048.size inb_S168x2048_S168x2048_0_0).PackedRows (EltTy.packing .bf16)
  bcast_S_S512x200 : S_.BroadcastsInDim S512x200 (![] : Fin 0 → Fin S512x200.rank)
  shapeCasts_S512x200_S102400x1 : S512x200.ShapeCasts S102400x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x168_d1_w32 : S1024x168.Iotas .tc 32 [1]
  broadcasts_S1024x1_S1024x168 : S1024x1.Broadcasts S1024x168
  natLt_1_32 : 1 < 32
  shapeCasts_S168x2048_S168x2048 : S168x2048.ShapeCasts S168x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  shapeCasts_S102400x2048_S512x200x2048 : S102400x2048.ShapeCasts S512x200x2048
  dot_S1024x168_S168x2048_S1024x2048_1_0_0_1_n_n_wf : DotDims.WF S1024x168 S168x2048 S1024x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S168x2048.size a ≤ S168x2048.size a
  hwx0_0 : ∀ i : grid0.Coords, EltTy.bits .f32 = 32 ∨ (Rect.block (s := S168x2048) S168x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S168x2048.size a ≤ S168x2048.size a
  hwx0_1 : ∀ i : grid0.Coords, EltTy.bits .bf16 = 32 ∨ (Rect.block (s := S168x2048) S168x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S168x2048.size a ≤ S168x2048.size a
  hwx0_2 : ∀ i : grid0.Coords, EltTy.bits .bf16 = 32 ∨ (Rect.block (s := S168x2048) S168x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1.size a ≤ S102400x1.size a
  hwx1_0 : ∀ i : grid1.Coords, EltTy.bits .i32 = 32 ∨ (Rect.block (s := S102400x1) S1024x1.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S168x2048.size a ≤ S168x2048.size a
  hwx1_1 : ∀ i : grid1.Coords, EltTy.bits .bf16 = 32 ∨ (Rect.block (s := S168x2048) S168x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S168x2048.size a ≤ S168x2048.size a
  hwx1_2 : ∀ i : grid1.Coords, EltTy.bits .bf16 = 32 ∨ (Rect.block (s := S168x2048) S168x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S102400x2048.size a
  hwx1_3 : ∀ i : grid1.Coords, EltTy.bits .f32 = 32 ∨ (Rect.block (s := S102400x2048) S1024x2048.size (cc1_transform_3 i) (hinb1_3 i)).WholeWords (EltTy.packing .f32)

variable [Facts₀]

def dot_S1024x168_S168x2048_S1024x2048_1_0_0_1_n_n : DotDims S1024x168 S168x2048 S1024x2048 where
  lhsContracting := [1]
  rhsContracting := [0]
  lhsNonContracting := [0]
  rhsNonContracting := [1]
  lhsBatch := []
  rhsBatch := []
  wf := dot_S1024x168_S168x2048_S1024x2048_1_0_0_1_n_n_wf

abbrev win0_0 : Pipeline.Window sig grid0 :=
  Pipeline.Window.ofSpec (Memref.whole main_arg1) S168x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S168x2048.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S168x2048.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S1024x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S168x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S168x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S512x200 : Shape := ⟨2, ![512, 200]⟩
abbrev S168x2048 : Shape := ⟨2, ![168, 2048]⟩
abbrev S_ : Shape := ⟨0, ![]⟩
abbrev S168 : Shape := ⟨1, ![168]⟩
abbrev S168x1 : Shape := ⟨2, ![168, 1]⟩
abbrev S512x200x1 : Shape := ⟨3, ![512, 200, 1]⟩
abbrev S512x200x2048 : Shape := ⟨3, ![512, 200, 2048]⟩

abbrev nBuf : Space → Nat
  | .hbm => 25
  | .vmem => 0
  | .smem => 0
  | _ => 0

abbrev bufTy : (tb : Table) → Fin (tcTables nBuf tb) → BufTy
  | .hbm, ⟨0, _⟩ => ⟨S512x200, .i32⟩
  | .hbm, ⟨1, _⟩ => ⟨S168x2048, .f32⟩
  | .hbm, ⟨2, _⟩ => ⟨S_, .f32⟩
  | .hbm, ⟨3, _⟩ => ⟨S168, .f32⟩
  | .hbm, ⟨4, _⟩ => ⟨S_, .f32⟩
  | .hbm, ⟨5, _⟩ => ⟨S168, .f32⟩
  | .hbm, ⟨6, _⟩ => ⟨S168, .f32⟩
  | .hbm, ⟨7, _⟩ => ⟨S168x1, .f32⟩
  | .hbm, ⟨8, _⟩ => ⟨S168x2048, .f32⟩
  | .hbm, ⟨9, _⟩ => ⟨S168x2048, .f32⟩
  | .hbm, ⟨10, _⟩ => ⟨S168x2048, .f32⟩
  | .hbm, ⟨11, _⟩ => ⟨S_, .f32⟩
  | .hbm, ⟨12, _⟩ => ⟨S168, .f32⟩
  | .hbm, ⟨13, _⟩ => ⟨S168x1, .f32⟩
  | .hbm, ⟨14, _⟩ => ⟨S168x2048, .f32⟩
  | .hbm, ⟨15, _⟩ => ⟨S168x2048, .f32⟩
  | .hbm, ⟨16, _⟩ => ⟨S_, .i32⟩
  | .hbm, ⟨17, _⟩ => ⟨S512x200, .i32⟩
  | .hbm, ⟨18, _⟩ => ⟨S512x200, .i1⟩
  | .hbm, ⟨19, _⟩ => ⟨S_, .i32⟩
  | .hbm, ⟨20, _⟩ => ⟨S512x200, .i32⟩
  | .hbm, ⟨21, _⟩ => ⟨S512x200, .i32⟩
  | .hbm, ⟨22, _⟩ => ⟨S512x200, .i32⟩
  | .hbm, ⟨23, _⟩ => ⟨S512x200x1, .i32⟩
  | .hbm, ⟨24, _⟩ => ⟨S512x200x2048, .f32⟩
  | _, _ => ⟨S512x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S168x2048_S168_d1 : S168x2048.ReducesTo [1] S168
  h_S_ : 0 < S_.numel
  bcast_S_S168 : S_.BroadcastsInDim S168 (![] : Fin 0 → Fin S168.rank)
  bcast_S168_S168x1_0 : S168.BroadcastsInDim S168x1 (![0] : Fin 1 → Fin S168x1.rank)
  bcast_S168x1_S168x2048_0_1 : S168x1.BroadcastsInDim S168x2048 (![0, 1] : Fin 2 → Fin S168x2048.rank)
  bcast_S_S512x200 : S_.BroadcastsInDim S512x200 (![] : Fin 0 → Fin S512x200.rank)
  bcast_S512x200_S512x200x1_0_1 : S512x200.BroadcastsInDim S512x200x1 (![0, 1] : Fin 2 → Fin S512x200x1.rank)
  gather_S168x2048_S512x200x1_S512x200x2048_2_0_n_n_0_2_12048_wf : GatherDims.WF S168x2048 S512x200x1 S512x200x2048 [2] [0] [] [0] [] 2 ![1, 2048]

variable [Facts₀]

def gather_S168x2048_S512x200x1_S512x200x2048_2_0_n_n_0_2_12048 : GatherDims S168x2048 S512x200x1 S512x200x2048 where
  offsetDims := [2]
  collapsedSliceDims := [0]
  operandBatchingDims := []
  startIndicesBatchingDims := []
  startIndexMap := [0]
  indexVectorDim := 2
  sliceSizes := ![1, 2048]
  wf := gather_S168x2048_S512x200x1_S512x200x2048_2_0_n_n_0_2_12048_wf

class Facts : Prop extends Facts₀ where

variable [Facts]
-- ==== Proof.Region0.lean ====
/-
  The first pallas_call (the softmax of the table) read as values, for any contents `V` the region is entered with and any
  float instance. Its grid has one point and every window's block is the whole [168, 2048] array at block index (0, 0): so the
  input block at that point IS the table as the region finds it, what the point writes back to an output window IS the
  body's payload of that table, and the one block covers the array. Hence after the region the two output arrays hold
  the two payloads of the table: `k0_pay2` (the softmax, narrowed) and `k0_pay3` (the softmax minus itself, narrowed).
-/
import proofs.«423302_j71090298683718_3_alg».proof.Proof.Gen.KernelIdeal.Frame
import Idealize.ShloMosaic.Lib.Pipeline.Value

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

theorem zero_offsets : (![0, 0] : Fin 2 → Nat) = fun _ => 0 := funext fun a => by fin_cases a <;> rfl

/-- Every window of the call sits at block index (0, 0) at every grid point (decided over the one point). -/
theorem block_index_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The input block at a point is the table as the region finds it. -/
theorem table_block (c : Dev nD) (t : Fin cfg0.N) : iblk0 V c 0 t = V c main_arg1 := by
  obtain ⟨e0, e1, -⟩ := block_index_zero t
  funext y
  show V c main_arg1 (((cfg0.win 0).blk t).view.emb y) = V c main_arg1 y
  refine congrArg (V c main_arg1) ?_
  funext a; apply Fin.ext
  match a with
  | ⟨0, _⟩ => show win0_0.index t (0 : Fin 2) * 168 + 1 * (y 0).val = (y 0).val; omega
  | ⟨1, _⟩ => show win0_0.index t (1 : Fin 2) * 2048 + 1 * (y 1).val = (y 1).val; omega

/-- An index of output window 1's block is the same index of the array. -/
theorem emb1 (t : Fin cfg0.N) (y : S168x2048.Idx) : ((cfg0.win 1).blk t).view.emb y = y := by
  obtain ⟨-, -, e0, e1, -⟩ := block_index_zero t
  funext a; apply Fin.ext
  match a with
  | ⟨0, _⟩ => show win0_1.index t (0 : Fin 2) * 168 + 1 * (y 0).val = (y 0).val; omega
  | ⟨1, _⟩ => show win0_1.index t (1 : Fin 2) * 2048 + 1 * (y 1).val = (y 1).val; omega

/-- An index of output window 2's block is the same index of the array. -/
theorem emb2 (t : Fin cfg0.N) (y : S168x2048.Idx) : ((cfg0.win 2).blk t).view.emb y = y := by
  obtain ⟨-, -, -, -, e0, e1⟩ := block_index_zero t
  funext a; apply Fin.ext
  match a with
  | ⟨0, _⟩ => show win0_2.index t (0 : Fin 2) * 168 + 1 * (y 0).val = (y 0).val; omega
  | ⟨1, _⟩ => show win0_2.index t (1 : Fin 2) * 2048 + 1 * (y 1).val = (y 1).val; omega

/-- What the point writes back to output window 1 is the block of the first payload of the table. -/
theorem flushed1_eq (c : Dev nD) (t : Fin cfg0.N) :
    (dat0 V c).flushed 1 t = ((cfg0.win 1).blk t).view.read (Elt F) (k0_pay2 (V c main_arg1)) := by
  show (cfg0.win 1).cut (grid0.coords t) ((dat0 V c).after 1 t) = _
  rw [after0_1]
  unfold out0_1
  rw [View.canon_unit_zero zero_offsets]
  simp only [View.ld_unit_zero (S := S168x2048) zero_offsets]
  rw [table_block]
  funext j
  show k0_pay2 (V c main_arg1) j = k0_pay2 (V c main_arg1) (((cfg0.win 1).blk t).view.emb j)
  rw [emb1]

/-- What the point writes back to output window 2 is the block of the second payload of the table. -/
theorem flushed2_eq (c : Dev nD) (t : Fin cfg0.N) :
    (dat0 V c).flushed 2 t = ((cfg0.win 2).blk t).view.read (Elt F) (k0_pay3 (V c main_arg1)) := by
  show (cfg0.win 2).cut (grid0.coords t) ((dat0 V c).after 2 t) = _
  rw [after0_2]
  unfold out0_2
  rw [View.canon_unit_zero zero_offsets]
  simp only [View.ld_unit_zero (S := S168x2048) zero_offsets]
  rw [table_block]
  funext j
  show k0_pay3 (V c main_arg1) j = k0_pay3 (V c main_arg1) (((cfg0.win 2).blk t).view.emb j)
  rw [emb2]

/-- The one block of output window 1 covers its array. -/
theorem cover1 (i : S168x2048.Idx) : ∃ t : Fin cfg0.N, (cfg0.win 1).flush t = true ∧ i ∈ ((cfg0.win 1).blk t).view.set := by
  refine ⟨t0_0, flush0_1 t0_0, ?_⟩
  rw [← emb1 t0_0 i]
  exact ((cfg0.win 1).blk t0_0).view.emb_mem_set i

/-- The one block of output window 2 covers its array. -/
theorem cover2 (i : S168x2048.Idx) : ∃ t : Fin cfg0.N, (cfg0.win 2).flush t = true ∧ i ∈ ((cfg0.win 2).blk t).view.set := by
  refine ⟨t0_0, flush0_2 t0_0, ?_⟩
  rw [← emb2 t0_0 i]
  exact ((cfg0.win 2).blk t0_0).view.emb_mem_set i

/-- After the region the first output array holds the first payload of the table, -/
theorem arr1 (c : Dev nD) : (dat0 V c).arrAt 1 cfg0.N = k0_pay2 (V c main_arg1) :=
  (dat0 V c).arrAt_eq_of_cover 1 (k0_pay2 (V c main_arg1)) (fun t _ => flushed1_eq V c t) cover1

/-- and the second output array the second payload. -/
theorem arr2 (c : Dev nD) : (dat0 V c).arrAt 2 cfg0.N = k0_pay3 (V c main_arg1) :=
  (dat0 V c).arrAt_eq_of_cover 2 (k0_pay3 (V c main_arg1)) (fun t _ => flushed2_eq V c t) cover2

end Cert.KernelIdeal.Region0

end
-- ==== Proof.Region1.lean ====
/-
  The second pallas_call (the gather as two one-hot products) read as values.

  For any float instance: what the body leaves in the output block is `k1_pay3 x0 (k1_pay2 x0 x1) x2` of its three input
  blocks (the hour words `x0`, the two tables `x1`, `x2`): the first product is stored, loaded back, and the second added.

  At the ideal instance that block at `(p, q)` is `∑ k, w k * x1 (k, q) + ∑ k, w k * x2 (k, q)` with `w k = 1` when row `p`'s
  hour word is the number `k` and `0` otherwise: the one-hot entry is the comparison of the hour word with the column's
  number, widened and converted exactly, and each product into a zero accumulator is the plain sum over the 168 rows.

  Point `t` of the 100 writes back rows `1024 t … 1024 t + 1023`; the two tables' blocks are the whole tables; the blocks tile
  the [102400, 2048] result. So the result array is ONE function of the hour column and the two tables (`gathered`).
-/
import proofs.«423302_j71090298683718_3_alg».proof.Proof.Gen.KernelIdeal.Frame
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Tactic Idealize.ShloMosaic.ValueIdx
open Idealize.ShloMosaic.Pipeline (Dat)

theorem zero_offsets : (![0, 0] : Fin 2 → Nat) = fun _ => 0 := funext fun a => by fin_cases a <;> rfl

/-! ## The body's result, at any instance -/

section AnyInstance
variable {F : FTy → Type} [FloatOps F]

/-- What the run leaves in the output's staging buffer: the second store covers the first, and the load between them
    reads the first store's payload back. -/
theorem body_result (c : Dev nD) (i : grid1.Coords) (arg1 : Memref sig .tc .vmem S1024x1 .i32) (harg1 : arg1.IsWhole)
    (arg2 : Memref sig .tc .vmem S168x2048 .bf16) (harg2 : arg2.IsWhole) (arg3 : Memref sig .tc .vmem S168x2048 .bf16) (harg3 : arg3.IsWhole)
    (arg4 : Memref sig .tc .vmem S1024x2048 .f32) (harg4 : arg4.IsWhole)
    (x0 : Vec F S1024x1 .i32) (x1 : Vec F S168x2048 .bf16) (x2 : Vec F S168x2048 .bf16) :
    out1_A_3 c i arg1 harg1 arg2 harg2 arg3 harg3 arg4 harg4 x0 x1 x2 = k1_pay3 x0 (k1_pay2 x0 x1) x2 := by
  unfold out1_A_3
  rw [View.read_writes_eq_canon _ _ _ (cover1_A_3 c i arg1 harg1 arg2 harg2 arg3 harg3 arg4 harg4 x0 x1 x2)]
  unfold kernelRun1_A
  dsimp only
  sl_unfold_words
  rw [View.canon_cons_unit_zero (S := S1024x2048) zero_offsets]
  simp only [View.readAt_eq_ld, harg1.read_unread, harg2.read_unread, harg3.read_unread,
    View.readCov_unit_zero (S := S1024x2048) _ zero_offsets,
    View.ld_unit_zero (S := S1024x1) zero_offsets, View.ld_unit_zero (S := S168x2048) zero_offsets]

end AnyInstance

/-! ## The block at an index, over the extended reals -/

/-- The one-hot weight: `1` where the hour word is the number `k`, else `0`. -/
def weight (a : BitVec 32) (k : Fin 168) : EReal := if a = BitVec.ofNat 32 k.val then 1 else 0

/-- The one-hot matrix at row `p`, column `k`: the weight of row `p`'s hour word at `k`. -/
theorem onehot_apply (x0 : Vec Ideal S1024x1 .i32) (p : Fin 1024) (k : Fin 168) :
    k1_pay1 (F := Ideal) x0 (ix2 p k) = weight (x0 (ix2 p (0 : Fin 1))) k := by
  unfold k1_pay1
  rw [truncf_apply, sitofp_apply, extui_apply, shapeCast_self]
  show Scalar.sitofp (F := Ideal) .f32 ((IntOp.cmpi .eq (broadcastTo S1024x168 x0 broadcasts_S1024x1_S1024x168 (ix2 p k))
    (iota .tc S1024x168 32 [1] iota_S1024x168_d1_w32 (ix2 p k))).setWidth 32) = _
  rw [broadcastTo_apply x0 broadcasts_S1024x1_S1024x168 (ix2 p k) (ix2 p (0 : Fin 1)) (fun a => by
        match a with
        | ⟨0, _⟩ => rfl
        | ⟨1, _⟩ => rfl),
    iota_single_apply]
  show Scalar.sitofp (F := Ideal) .f32 (BitVec.setWidth 32 (IntOp.cmpi .eq (x0 (ix2 p (0 : Fin 1))) (BitVec.ofNat 32 k.val))) = _
  unfold weight
  rw [Ideal.scalar_sitofp_def]
  by_cases h : x0 (ix2 p (0 : Fin 1)) = BitVec.ofNat 32 k.val
  · rw [if_pos h, StableHlo.Predicate.cmpi_eq_iff.mpr h]
    show (((BitVec.setWidth 32 1#1).toInt : ℝ) : EReal) = 1
    rw [show (BitVec.setWidth 32 1#1).toInt = 1 from by decide]; simp
  · rw [if_neg h, eq_zero_of_ne_one (fun e => h (StableHlo.Predicate.cmpi_eq_iff.mp e))]
    show (((BitVec.setWidth 32 0#1).toInt : ℝ) : EReal) = 0
    rw [show (BitVec.setWidth 32 0#1).toInt = 0 from by decide]; simp

/-! ### A product into a zero accumulator is the sum over the 168 rows -/

theorem lhs_axis0 (j : S1024x2048.Idx) (k : dot_S1024x168_S168x2048_S1024x2048_1_0_0_1_n_n.contr.Idx) :
    (dot_S1024x168_S168x2048_S1024x2048_1_0_0_1_n_n.lhsIdx j k 0 : ℕ) = j 0 := by
  simp [DotDims.lhsIdx, dot_S1024x168_S168x2048_S1024x2048_1_0_0_1_n_n]; rfl
theorem lhs_axis1 (j : S1024x2048.Idx) (k : dot_S1024x168_S168x2048_S1024x2048_1_0_0_1_n_n.contr.Idx) :
    (dot_S1024x168_S168x2048_S1024x2048_1_0_0_1_n_n.lhsIdx j k 1 : ℕ) = k ⟨0, by decide⟩ := by
  simp [DotDims.lhsIdx, dot_S1024x168_S168x2048_S1024x2048_1_0_0_1_n_n]; rfl
theorem rhs_axis0 (j : S1024x2048.Idx) (k : dot_S1024x168_S168x2048_S1024x2048_1_0_0_1_n_n.contr.Idx) :
    (dot_S1024x168_S168x2048_S1024x2048_1_0_0_1_n_n.rhsIdx j k 0 : ℕ) = k ⟨0, by decide⟩ := by
  simp [DotDims.rhsIdx, dot_S1024x168_S168x2048_S1024x2048_1_0_0_1_n_n]; rfl
theorem rhs_axis1 (j : S1024x2048.Idx) (k : dot_S1024x168_S168x2048_S1024x2048_1_0_0_1_n_n.contr.Idx) :
    (dot_S1024x168_S168x2048_S1024x2048_1_0_0_1_n_n.rhsIdx j k 1 : ℕ) = j 1 := by
  simp [DotDims.rhsIdx, dot_S1024x168_S168x2048_S1024x2048_1_0_0_1_n_n]; rfl

/-- The product of a [1024, 168] matrix with a [168, 2048] matrix into the zero accumulator, at `(p, q)`. -/
theorem product_apply (w : FVec Ideal S1024x168 .bf16) (x : FVec Ideal S168x2048 .bf16) (p : Fin 1024) (q : Fin 2048) :
    matmul dot_S1024x168_S168x2048_S1024x2048_1_0_0_1_n_n none w x (constant S1024x2048 .f32 0x00000000#32) (ix2 p q)
      = ∑ k : Fin 168, w (ix2 p k) * x (ix2 k q) := by
  simp only [matmul]
  rw [Ideal.matmul_constant_zero_apply,
    ← Equiv.sum_comp (contrEquiv1 dot_S1024x168_S168x2048_S1024x2048_1_0_0_1_n_n 168 rfl rfl).symm]
  refine Finset.sum_congr rfl fun k _ => ?_
  congr 1
  · refine congrArg w (Shape.idx_ext₂ ?_ ?_)
    · exact lhs_axis0 _ _
    · exact (lhs_axis1 _ _).trans (contrEquiv1_symm_val dot_S1024x168_S168x2048_S1024x2048_1_0_0_1_n_n 168 rfl rfl k)
  · refine congrArg x (Shape.idx_ext₂ ?_ ?_)
    · exact (rhs_axis0 _ _).trans (contrEquiv1_symm_val dot_S1024x168_S168x2048_S1024x2048_1_0_0_1_n_n 168 rfl rfl k)
    · exact rhs_axis1 _ _

/-- The output block at `(p, q)`: the two one-hot sums, added. -/
theorem block_apply (x0 : Vec Ideal S1024x1 .i32) (x1 x2 : Vec Ideal S168x2048 .bf16) (p : Fin 1024) (q : Fin 2048) :
    k1_pay3 (F := Ideal) x0 (k1_pay2 x0 x1) x2 (ix2 p q)
      = (∑ k : Fin 168, weight (x0 (ix2 p (0 : Fin 1))) k * x1 (ix2 k q))
        + ∑ k : Fin 168, weight (x0 (ix2 p (0 : Fin 1))) k * x2 (ix2 k q) := by
  unfold k1_pay3 k1_pay2
  simp only [shapeCast_self]
  rw [addf_apply, product_apply, product_apply]
  simp only [onehot_apply]

/-! ## From blocks to the array -/

/-- The gathered array as ONE function of the hour column and the two tables: row `r`, column `q` is the two one-hot sums of
    row `r`'s hour word against column `q` of the tables. -/
def gathered (hours : S102400x1.Idx → BitVec 32) (hi lo : S168x2048.Idx → EReal) : S102400x2048.Idx → EReal :=
  fun i => (∑ k : Fin 168, weight (hours (ix2 (i 0) (0 : Fin 1))) k * hi (ix2 k (i 1)))
    + ∑ k : Fin 168, weight (hours (ix2 (i 0) (0 : Fin 1))) k * lo (ix2 k (i 1))

variable (V : (c : Dev nD) → (b : Ref sig .tc) → Buf (Elt Ideal) ((c : Thread nD τ).loc b))

/-- The printed index maps over the 100 points: the hour window and the output window sit at block row `t`, column 0; the
    two table windows at block (0, 0). -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the gathered array of the contents the region is entered with. -/
theorem flushed3_eq (c : Dev nD) (t : Fin cfg1.N) :
    (dat1 V c).flushed 3 t
      = ((cfg1.win 3).blk t).view.read (Elt Ideal) (gathered (V c main_v2) (V c main_v0_0) (V c main_v0_1)) := by
  show (cfg1.win 3).cut (grid1.coords t) ((dat1 V c).after 3 t) = _
  rw [after1_3]
  unfold outsAt1
  rw [body_result]
  obtain ⟨a0, a1, b0, b1, c0, c1, d0, d1⟩ := block_index t
  funext j
  obtain ⟨p, q, rfl⟩ : ∃ (p : Fin 1024) (q : Fin 2048), j = ix2 p q := ⟨j 0, j 1, eq_ix2 j⟩
  show k1_pay3 (F := Ideal) (iblk1 V c 0 t) (k1_pay2 (iblk1 V c 0 t) (iblk1 V c 1 t)) (iblk1 V c 2 t) (ix2 p q)
    = gathered (V c main_v2) (V c main_v0_0) (V c main_v0_1) (((cfg1.win 3).blk t).view.emb (ix2 p q))
  refine (block_apply (iblk1 V c 0 t) (iblk1 V c 1 t) (iblk1 V c 2 t) p q).trans ?_
  unfold gathered
  have hrow : iblk1 V c 0 t (ix2 p (0 : Fin 1))
      = V c main_v2 (ix2 ((((cfg1.win 3).blk t).view.emb (ix2 p q)) 0) (0 : Fin 1)) := by
    show V c main_v2 (((cfg1.win 0).blk t).view.emb (ix2 p (0 : Fin 1))) = _
    refine congrArg (V c main_v2) ?_
    funext a; apply Fin.ext
    match a with
    | ⟨0, _⟩ => show win1_0.index t (0 : Fin 2) * 1024 + 1 * p.val = win1_3.index t (0 : Fin 2) * 1024 + 1 * p.val; omega
    | ⟨1, _⟩ => show win1_0.index t (1 : Fin 2) * 1 + 1 * 0 = 0; omega
  have hhi : ∀ k : Fin 168, iblk1 V c 1 t (ix2 k q)
      = V c main_v0_0 (ix2 k ((((cfg1.win 3).blk t).view.emb (ix2 p q)) 1)) := fun k => by
    show V c main_v0_0 (((cfg1.win 1).blk t).view.emb (ix2 k q)) = _
    refine congrArg (V c main_v0_0) ?_
    funext a; apply Fin.ext
    match a with
    | ⟨0, _⟩ => show win1_1.index t (0 : Fin 2) * 168 + 1 * k.val = k.val; omega
    | ⟨1, _⟩ => show win1_1.index t (1 : Fin 2) * 2048 + 1 * q.val = win1_3.index t (1 : Fin 2) * 2048 + 1 * q.val; omega
  have hlo : ∀ k : Fin 168, iblk1 V c 2 t (ix2 k q)
      = V c main_v0_1 (ix2 k ((((cfg1.win 3).blk t).view.emb (ix2 p q)) 1)) := fun k => by
    show V c main_v0_1 (((cfg1.win 2).blk t).view.emb (ix2 k q)) = _
    refine congrArg (V c main_v0_1) ?_
    funext a; apply Fin.ext
    match a with
    | ⟨0, _⟩ => show win1_2.index t (0 : Fin 2) * 168 + 1 * k.val = k.val; omega
    | ⟨1, _⟩ => show win1_2.index t (1 : Fin 2) * 2048 + 1 * q.val = win1_3.index t (1 : Fin 2) * 2048 + 1 * q.val; omega
  rw [hrow]
  simp only [hhi, hlo]

/-- An index of the result is in point `t`'s block iff each coordinate is in the block's range on its axis. -/
theorem mem_blk3 (t : Fin cfg1.N) (i : S102400x2048.Idx) :
    i ∈ ((cfg1.win 3).blk t).view.set ↔ ∀ a : Fin 2, win1_3.index t a * S1024x2048.size a ≤ (i a).val
      ∧ (i a).val < win1_3.index t a * S1024x2048.size a + S1024x2048.size a := by
  show i ∈ ((View.whole main_v3).slice (win1_3.rect t)).set ↔ _
  rw [View.set_slice_whole, Rect.mem_set_unit]
  exact Iff.rfl

/-- The 100 blocks cover the result: row `r` is in the block of point `r / 1024`. -/
theorem cover3 (i : S102400x2048.Idx) :
    ∃ t : Fin cfg1.N, (cfg1.win 3).flush t = true ∧ i ∈ ((cfg1.win 3).blk t).view.set := by
  have hi0 : (i 0).val < 102400 := (i 0).isLt
  have hi1 : (i 1).val < 2048 := (i 1).isLt
  let t : Fin cfg1.N := ⟨(i 0).val / 1024, by rw [show cfg1.N = 100 from N_1]; omega⟩
  obtain ⟨-, -, -, -, -, -, d0, d1⟩ := block_index t
  have ht : t.val = (i 0).val / 1024 := rfl
  refine ⟨t, flush1_3 t, ?_⟩
  rw [mem_blk3]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 2048 ≤ (i 1).val ∧ (i 1).val < win1_3.index t (1 : Fin 2) * 2048 + 2048; omega

/-- After the region the result array is the gathered array of the hour column and the two tables it was entered with. -/
theorem arr3 (c : Dev nD) :
    (dat1 V c).arrAt 3 cfg1.N = gathered (V c main_v2) (V c main_v0_0) (V c main_v0_1) :=
  (dat1 V c).arrAt_eq_of_cover 3 (gathered (V c main_v2) (V c main_v0_0) (V c main_v0_1)) (fun t _ => flushed3_eq V c t) cover3

end Cert.KernelIdeal.Region1

end
-- ==== Proof.KernelValue.lean ====
/-
  The contents of the result buffer at the last boundary of @main, as one term of the two argument arrays (ideal instance).

  Reading the boundaries backwards: the result is the reshape to [512, 200, 2048] of what the gather call leaves in its
  [102400, 2048] output; that call was entered with the hour column — the index array clipped into [0, 167] and reshaped
  to [102400, 1] — and with the two tables the softmax call left, which no host operation in between touches; and the softmax
  call was entered with the table argument as launched. So the result is
    `reshape (gathered (hourColumn idx) (k0_pay2 x) (k0_pay3 x))`.
-/
import proofs.«423302_j71090298683718_3_alg».proof.Proof.Region0
import proofs.«423302_j71090298683718_3_alg».proof.Proof.Region1
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

/-- The hour column the gather call reads: the index array clipped into [0, 167] (a signed maximum with 0, then a signed
    minimum with 167), reshaped to one column. -/
def hourColumn (idx : IVec S512x200 32) : IVec S102400x1 32 :=
  shapeCast S102400x1
    (minsi (broadcastInDim S512x200 ![] bcast_S_S512x200 (constantI S_ 32 167#32))
      (maxsi (broadcastInDim S512x200 ![] bcast_S_S512x200 (constantI S_ 32 0#32)) idx))
    shapeCasts_S512x200_S102400x1

/-- The kernel's result as a function of its two arguments. -/
def kernelValue (idx : IVec S512x200 32) (x : FVec Ideal S168x2048 .f32) : FVec Ideal S512x200x2048 .f32 :=
  shapeCast S512x200x2048
    (Region1.gathered (hourColumn idx) (k0_pay2 (F := Ideal) x) (k0_pay3 (F := Ideal) x))
    shapeCasts_S102400x2048_S512x200x2048

variable (m : (ℓ : Loc nD τ sig) → Buf (Elt Ideal) ℓ) (ρ : Dev nD → PrngReg)

/-- The last host operation reshapes the gather call's output. -/
theorem result_eq (c : Dev nD) : W6 m ρ c (Proc.devRef .tc main_v4)
    = shapeCast S512x200x2048 (W5 m ρ c (Proc.devRef .tc main_v3)) shapeCasts_S102400x2048_S512x200x2048 := by
  show StableHlo.after hostOps2 (W5 m ρ c) (Proc.devRef .tc main_v4) = _
  after_results
  rfl

/-- The gather call is entered with the clipped, reshaped index argument in its hour column, -/
theorem hours_eq (c : Dev nD) :
    W4 m ρ c (Proc.devRef .tc main_v2) = hourColumn (m ((c : Thread nD τ).loc main_arg0)) := by
  have e : W1 m ρ c (Proc.devRef .tc main_arg0) = m ((c : Thread nD τ).loc main_arg0) :=
    W1_of_ne m ρ c main_arg0 (by decide)
  unfold hourColumn
  rw [← e]
  show StableHlo.after hostOps1_2 (StableHlo.after hostOps1_1 (StableHlo.after hostOps1 (W1 m ρ c))) (Proc.devRef .tc main_v2) = _
  after_results
  rfl

/-- with the softmax call's first output (the first payload of the table argument) in its first table, -/
theorem hi_eq (c : Dev nD) :
    W4 m ρ c (Proc.devRef .tc main_v0_0) = k0_pay2 (F := Ideal) (m ((c : Thread nD τ).loc main_arg1)) := by
  have h : W4 m ρ c (Proc.devRef .tc main_v0_0) = W1 m ρ c (Proc.devRef .tc main_v0_0) := by
    show StableHlo.after hostOps1_2 (StableHlo.after hostOps1_1 (StableHlo.after hostOps1 (W1 m ρ c))) (Proc.devRef .tc main_v0_0) = _
    after_results
  exact h.trans ((W1_arr m ρ c 1).trans (Region0.arr1 (V0 m ρ) c))

/-- and its second output in the second. -/
theorem lo_eq (c : Dev nD) :
    W4 m ρ c (Proc.devRef .tc main_v0_1) = k0_pay3 (F := Ideal) (m ((c : Thread nD τ).loc main_arg1)) := by
  have h : W4 m ρ c (Proc.devRef .tc main_v0_1) = W1 m ρ c (Proc.devRef .tc main_v0_1) := by
    show StableHlo.after hostOps1_2 (StableHlo.after hostOps1_1 (StableHlo.after hostOps1 (W1 m ρ c))) (Proc.devRef .tc main_v0_1) = _
    after_results
  exact h.trans ((W1_arr m ρ c 2).trans (Region0.arr2 (V0 m ρ) c))

/-- The result buffer ends at the kernel's function of the two arguments as launched. -/
theorem result_value (c : Dev nD) :
    W6 m ρ c (Proc.devRef .tc main_v4)
      = kernelValue (m ((c : Thread nD τ).loc main_arg0)) (m ((c : Thread nD τ).loc main_arg1)) := by
  rw [result_eq]
  unfold kernelValue
  have h3 : W5 m ρ c (Proc.devRef .tc main_v3)
      = Region1.gathered (W4 m ρ c (Proc.devRef .tc main_v2)) (W4 m ρ c (Proc.devRef .tc main_v0_0)) (W4 m ρ c (Proc.devRef .tc main_v0_1)) :=
    (W5_arr m ρ c 3).trans (Region1.arr3 (V4 m ρ) c)
  rw [h3, hours_eq, hi_eq, lo_eq]

end Cert.KernelIdeal.Fold

end
-- ==== Proof.Spec.lean ====
/-
  The mathematics both programs are compared against, stated over the extended reals with no program in sight.

  For a table `x` of 168 rows and 2048 columns, row `k`'s softmax is
    `prob x k c = exp (x k c - M k) / ∑ c', exp (x k c' - M k)`,  `M k` the maximum of row `k` (a fold of `max` from `-∞`).
  The result array holds, at `(b, s, c)`, the softmax of the row that the integer `idx b s` selects, the integer read
  signed and clamped into `[0, 167]` (`rowOf`).

  Facts proved here: when every entry of `x` is a real number so is every `prob x k c` (the maximum of a non-empty row of
  reals is real, the exponentials are positive reals, so the row's sum is a positive real and the quotient is real);
  a real minus itself is `0`; and a sum weighted by an indicator of one index is the summand at that index.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev STab : Shape := ⟨2, ![168, 2048]⟩
abbrev SIdx : Shape := ⟨2, ![512, 200]⟩
abbrev SOut : Shape := ⟨3, ![512, 200, 2048]⟩

/-- The word of `-∞` denotes the bottom of the extended reals. -/
theorem ofBits_neg_inf : Ideal.ofBits .f32 0xFF800000#32 = (⊥ : EReal) := by
  simp [Ideal.ofBits, Ideal.ieee]

/-- Row `k`'s maximum: the fold of `max` over the row, from `-∞`. -/
def rowMax (x : STab.Idx → EReal) (k : Fin 168) : EReal :=
  (Finset.univ : Finset (Fin 2048)).fold max (Ideal.ofBits .f32 0xFF800000#32) (fun c => x (ix2 k c))

/-- The shifted exponential `exp (x k c - M k)`. -/
def expShift (x : STab.Idx → EReal) (k : Fin 168) (c : Fin 2048) : EReal :=
  Ideal.exp (x (ix2 k c) - rowMax x k)

/-- The row's normaliser `∑ c, exp (x k c - M k)`. -/
def rowSum (x : STab.Idx → EReal) (k : Fin 168) : EReal := ∑ c : Fin 2048, expShift x k c

/-- The softmax of row `k` at column `c`. -/
def prob (x : STab.Idx → EReal) (k : Fin 168) (c : Fin 2048) : EReal :=
  Ideal.div (expShift x k c) (rowSum x k)

/-- The row an index word selects: the word read signed, clamped into `[0, 167]`. -/
def rowOf (w : BitVec 32) : Fin 168 := ⟨min w.toInt.toNat 167, by omega⟩

/-- The result: at `(b, s, c)` the softmax of the row `idx b s` selects, at column `c`. -/
def G (idx : SIdx.Idx → BitVec 32) (x : STab.Idx → EReal) : SOut.Idx → EReal :=
  fun j => prob x (rowOf (idx (ix2 (j 0) (j 1)))) (j 2)

/-! ## Realness -/

/-- A fold of `max` from `-∞` over reals is `-∞` on the empty set and a real otherwise. -/
theorem fold_max_real {ι : Type} [DecidableEq ι] (f : ι → EReal) (hf : ∀ i, ∃ r : ℝ, f i = (r : EReal)) (s : Finset ι) :
    (s = ∅ ∧ s.fold max (⊥ : EReal) f = ⊥) ∨ ∃ r : ℝ, s.fold max (⊥ : EReal) f = (r : EReal) := by
  induction s using Finset.induction_on with
  | empty => exact Or.inl ⟨rfl, rfl⟩
  | insert a s ha ih =>
    right
    rw [Finset.fold_insert ha]
    obtain ⟨r, hr⟩ := hf a
    rcases ih with ⟨-, h⟩ | ⟨r', h⟩
    · exact ⟨r, by rw [h, hr]; exact max_eq_left bot_le⟩
    · rcases le_total r r' with hle | hle
      · exact ⟨r', by rw [h, hr]; exact max_eq_right (EReal.coe_le_coe_iff.mpr hle)⟩
      · exact ⟨r, by rw [h, hr]; exact max_eq_left (EReal.coe_le_coe_iff.mpr hle)⟩

/-- A finite sum of (coerced) reals is the coerced sum. -/
theorem coe_sum {ι : Type} [DecidableEq ι] (g : ι → ℝ) (s : Finset ι) :
    (∑ i ∈ s, ((g i : ℝ) : EReal)) = ((∑ i ∈ s, g i : ℝ) : EReal) := by
  induction s using Finset.induction_on with
  | empty => simp
  | insert a s ha ih => rw [Finset.sum_insert ha, Finset.sum_insert ha, ih, EReal.coe_add]

/-- Over a table of reals every softmax entry is a real. -/
theorem prob_real (x : STab.Idx → EReal) (hx : ∀ i, ∃ r : ℝ, x i = (r : EReal)) (k : Fin 168) (c : Fin 2048) :
    ∃ r : ℝ, prob x k c = (r : EReal) := by
  -- the row's maximum is a real
  obtain ⟨M, hM⟩ : ∃ M : ℝ, rowMax x k = (M : EReal) := by
    unfold rowMax; rw [ofBits_neg_inf]
    rcases fold_max_real (fun c => x (ix2 k c)) (fun c => hx _) Finset.univ with ⟨he, -⟩ | h
    · exact absurd he (Finset.univ_nonempty (α := Fin 2048)).ne_empty
    · exact h
  -- each shifted exponential is a positive real
  choose xr hxr using hx
  have hE : ∀ c' : Fin 2048, expShift x k c' = ((Real.exp (xr (ix2 k c') - M) : ℝ) : EReal) := fun c' => by
    unfold expShift; rw [hM, hxr, ← EReal.coe_sub]; rfl
  -- so is their sum
  have hS : rowSum x k = ((∑ c' : Fin 2048, Real.exp (xr (ix2 k c') - M) : ℝ) : EReal) := by
    unfold rowSum; rw [← coe_sum]; exact Finset.sum_congr rfl fun c' _ => hE c'
  have hpos : (0 : ℝ) < ∑ c' : Fin 2048, Real.exp (xr (ix2 k c') - M) :=
    Finset.sum_pos (fun _ _ => Real.exp_pos _) Finset.univ_nonempty
  refine ⟨Real.exp (xr (ix2 k c) - M) * (1 / ∑ c' : Fin 2048, Real.exp (xr (ix2 k c') - M)), ?_⟩
  unfold prob
  rw [hS, hE, Ideal.div_coe (ne_of_gt hpos), ← EReal.coe_mul]

/-- A real minus itself is zero (on the extended reals this fails only at the infinities). -/
theorem sub_self_of_real {a : EReal} (h : ∃ r : ℝ, a = (r : EReal)) : a - a = 0 := by
  obtain ⟨r, rfl⟩ := h
  rw [← EReal.coe_sub, sub_self, EReal.coe_zero]

/-! ## The indicator sum -/

/-- A sum weighted by the indicator of one index is the summand there. -/
theorem sum_indicator_mul {n : Nat} (h : Fin n) (a : Fin n → EReal) :
    (∑ k : Fin n, (if k = h then (1 : EReal) else 0) * a k) = a h := by
  rw [Finset.sum_eq_single h]
  · rw [if_pos rfl, one_mul]
  · intro k _ hk; rw [if_neg hk, zero_mul]
  · intro hh; exact absurd (Finset.mem_univ h) hh

end Cert.Spec

end
-- ==== Proof.Bridge.lean ====
/-
  The kernel's function of its arguments is the specification, over a table of real numbers.

  Row `k` of the softmax payload: the lane maximum (a fold of `max` from `-∞`) made a column and broadcast, the shifted
  exponentials, their lane sum made a column and broadcast, and the quotient — term by term the specification's `prob`.
  The first table the softmax call writes is that softmax (narrowing to bf16 is the identity on the extended reals); the
  second is the softmax minus itself, which is zero because the softmax of a table of reals is real.

  The index word clipped by a signed maximum with 0 and a signed minimum with 167 is the number of the row the word selects
  (the word read signed and clamped into [0, 167]); the one-hot weight of that number against column `k` is the indicator of
  `k` being that row; so the first one-hot sum is the softmax of the selected row and the second sum is zero.
  The reshapes only re-index: `(b, s, q)` of the result is row `200 b + s`, column `q` of the gathered array.
-/
import proofs.«423302_j71090298683718_3_alg».proof.Proof.Spec
import proofs.«423302_j71090298683718_3_alg».proof.Proof.KernelValue

set_option maxRecDepth 16384

noncomputable section

namespace Cert.KernelIdeal.Bridge

open Cert.KernelIdeal Cert.KernelIdeal.Gen Idealize.ShloMosaic Idealize.ShloMosaic.ValueIdx

/-- The index a row's reduction inserts column `c` at is `(k, c)`. -/
theorem lift_row (k : Fin 168) (c : Fin 2048) : reduces_S168x2048_S168.lift (ix1 k) c = ix2 k c :=
  funext fun a => Fin.ext (by match a with | ⟨0, _⟩ => rfl | ⟨1, _⟩ => rfl)

/-- A per-row vector, made a column and broadcast over the row, read at `(k, q)`. -/
theorem keepdims_apply (v : FVec Ideal S168 .f32) (k : Fin 168) (q : Fin 2048) :
    broadcastTo S168x2048 (shapeCast S168x1 v shapeCasts_S168_S168x1) broadcasts_S168x1_S168x2048 (ix2 k q) = v (ix1 k) := by
  rw [broadcastTo_apply _ broadcasts_S168x1_S168x2048 (ix2 k q) (ix2 k (0 : Fin 1)) (fun a => by
        match a with
        | ⟨0, _⟩ => rfl
        | ⟨1, _⟩ => rfl),
    shapeCast_apply _ shapeCasts_S168_S168x1 (ix2 k (0 : Fin 1)) (ix1 k) (by
      rw [Shape.rowMajor_val_one, Shape.rowMajor_val_two]; show k.val = k.val * 1 + 0; omega)]

/-- The kernel's row maximum at row `k`. -/
theorem row_max_apply (x : FVec Ideal S168x2048 .f32) (hφ : FKind.Formats .f32)
    (hacc : (0xFF800000#32 : BitVec 32) = 0xFF800000#32) (k : Fin 168) :
    multiReduction .maximumf [1] S168 x 0xFF800000#32 reduces_S168x2048_S168 hφ hacc (ix1 k) = Spec.rowMax x k := by
  refine (Ideal.multiReduction_maximumf_single x 0xFF800000#32 reduces_S168x2048_S168 hφ hacc (ix1 k)).trans ?_
  unfold Spec.rowMax
  show Finset.fold max (Ideal.ofBits .f32 0xFF800000#32) (fun c : Fin 2048 => x (reduces_S168x2048_S168.lift (ix1 k) c)) Finset.univ = _
  simp only [lift_row]

/-- The kernel's row sum at row `k`. -/
theorem row_sum_apply (e : FVec Ideal S168x2048 .f32) (hφ : FKind.Formats .f32)
    (hacc : (0x00000000#32 : BitVec 32) = 0x00000000#32) (k : Fin 168) :
    multiReduction .add [1] S168 e 0x00000000#32 reduces_S168x2048_S168 hφ hacc (ix1 k) = ∑ c : Fin 2048, e (ix2 k c) := by
  refine (Ideal.multiReduction_add_single e 0x00000000#32 reduces_S168x2048_S168 hφ hacc (ix1 k)).trans ?_
  show (∑ c : Fin 2048, e (reduces_S168x2048_S168.lift (ix1 k) c)) = _
  simp only [lift_row]

/-- The kernel's shifted exponential at `(k, c)`. -/
theorem shifted_apply (x : FVec Ideal S168x2048 .f32) (hφ : FKind.Formats .f32)
    (hacc : (0xFF800000#32 : BitVec 32) = 0xFF800000#32) (k : Fin 168) (c : Fin 2048) :
    exp (subf x (broadcastTo S168x2048 (shapeCast S168x1
      (multiReduction .maximumf [1] S168 x 0xFF800000#32 reduces_S168x2048_S168 hφ hacc)
      shapeCasts_S168_S168x1) broadcasts_S168x1_S168x2048)) (ix2 k c) = Spec.expShift x k c := by
  show Ideal.exp (x (ix2 k c) - _) = _
  unfold Spec.expShift
  refine congrArg (fun t => Ideal.exp (x (ix2 k c) - t)) ?_
  refine (keepdims_apply _ k c).trans ?_
  exact row_max_apply x hφ hacc k

/-- The kernel's softmax payload at `(k, q)` is the specification's softmax. -/
theorem softmax_apply (x : FVec Ideal S168x2048 .f32) (k : Fin 168) (q : Fin 2048) :
    k0_pay1 (F := Ideal) x (ix2 k q) = Spec.prob x k q := by
  unfold k0_pay1
  show Ideal.div _ _ = _
  unfold Spec.prob
  refine congrArg₂ Ideal.div ?_ ?_
  · exact shifted_apply x _ _ k q
  · refine (keepdims_apply _ k q).trans ?_
    refine (row_sum_apply _ _ _ k).trans ?_
    unfold Spec.rowSum
    exact Finset.sum_congr rfl fun c _ => shifted_apply x _ _ k c

/-- The first table the softmax call leaves is the softmax (narrowing is the identity on the extended reals). -/
theorem hi_apply (x : FVec Ideal S168x2048 .f32) (k : Fin 168) (q : Fin 2048) :
    k0_pay2 (F := Ideal) x (ix2 k q) = Spec.prob x k q := by
  unfold k0_pay2
  show k0_pay1 (F := Ideal) x (ix2 k q) = _
  exact softmax_apply x k q

/-- The second table is the softmax minus itself: zero, the softmax of a table of reals being real. -/
theorem lo_apply (x : FVec Ideal S168x2048 .f32) (hx : ∀ i, ∃ r : ℝ, x i = (r : EReal)) (k : Fin 168) (q : Fin 2048) :
    k0_pay3 (F := Ideal) x (ix2 k q) = 0 := by
  unfold k0_pay3
  show k0_pay1 (F := Ideal) x (ix2 k q) - k0_pay1 (F := Ideal) x (ix2 k q) = 0
  rw [softmax_apply]
  exact Spec.sub_self_of_real (Spec.prob_real x hx k q)

/-! ## The clipped index word -/

/-- A word's signed value, by the sign bit. -/
theorem toInt_cases (w : BitVec 32) :
    (w.toNat < 2 ^ 31 ∧ w.toInt = (w.toNat : ℤ)) ∨ (2 ^ 31 ≤ w.toNat ∧ w.toInt = (w.toNat : ℤ) - 2 ^ 32) := by
  have h := BitVec.toInt_eq_toNat_cond w
  have hlt := w.isLt
  split at h
  · left; omega
  · right; omega

/-- Clipping a word into [0, 167] by a signed maximum and a signed minimum gives the number of the row it selects. -/
theorem clip_word (w : BitVec 32) :
    IntOp.minsi 167#32 (IntOp.maxsi 0#32 w) = BitVec.ofNat 32 (Spec.rowOf w).val := by
  have h0 : (0#32 : BitVec 32).toInt = 0 := by decide
  have h167 : (167#32 : BitVec 32).toInt = 167 := by decide
  have hlt := w.isLt
  unfold Spec.rowOf
  rcases toInt_cases w with ⟨hs, hi⟩ | ⟨hs, hi⟩
  · -- a nonnegative word: the maximum with 0 keeps it
    have hmax : IntOp.maxsi 0#32 w = w := by
      unfold IntOp.maxsi; rw [if_neg]; simp only [BitVec.slt, h0, decide_eq_true_eq]; omega
    rw [hmax]
    by_cases hle : w.toInt ≤ 167
    · have hmin : IntOp.minsi 167#32 w = w := by
        unfold IntOp.minsi; rw [if_neg]; simp only [BitVec.slt, h167, decide_eq_true_eq]; omega
      rw [hmin]
      apply BitVec.eq_of_toNat_eq
      simp only [BitVec.toNat_ofNat]
      have : min w.toInt.toNat 167 = w.toNat := by omega
      rw [this]; omega
    · have hmin : IntOp.minsi 167#32 w = 167#32 := by
        unfold IntOp.minsi; rw [if_pos]; simp only [BitVec.slt, h167, decide_eq_true_eq]; omega
      rw [hmin]
      have : min w.toInt.toNat 167 = 167 := by omega
      simp only [this]
  · -- a negative word: the maximum with 0 is 0
    have hmax : IntOp.maxsi 0#32 w = 0#32 := by
      unfold IntOp.maxsi; rw [if_pos]; simp only [BitVec.slt, h0, decide_eq_true_eq]; omega
    rw [hmax]
    have hmin : IntOp.minsi 167#32 0#32 = 0#32 := by decide
    rw [hmin]
    have : min w.toInt.toNat 167 = 0 := by omega
    simp only [this]

/-- The one-hot weight of a row's number is the indicator of that row. -/
theorem weight_row (r k : Fin 168) :
    Region1.weight (BitVec.ofNat 32 r.val) k = if k = r then (1 : EReal) else 0 := by
  unfold Region1.weight
  have hr := r.isLt
  have hk := k.isLt
  by_cases h : k = r
  · subst h; rw [if_pos rfl, if_pos rfl]
  · rw [if_neg h, if_neg]
    intro e
    apply h
    have := congrArg BitVec.toNat e
    simp only [BitVec.toNat_ofNat] at this
    apply Fin.ext
    omega

/-! ## The kernel's value is the specification -/

/-- The hour column at row `200 b + s` is the index word of `(b, s)`, clipped. -/
theorem hour_apply (idx : IVec S512x200 32) (b : Fin 512) (s : Fin 200) (r : Fin 102400) (hr : r.val = b.val * 200 + s.val) :
    Fold.hourColumn idx (ix2 r (0 : Fin 1)) = IntOp.minsi 167#32 (IntOp.maxsi 0#32 (idx (ix2 b s))) := by
  unfold Fold.hourColumn
  refine (shapeCast_apply _ shapeCasts_S512x200_S102400x1 (ix2 r (0 : Fin 1)) (ix2 b s) (by
    rw [Shape.rowMajor_val_two, Shape.rowMajor_val_two]; show b.val * 200 + s.val = r.val * 1 + 0; omega)).trans ?_
  rfl

/-- The row of the [102400, 2048] array that `(b, s)` of the result reads. -/
def flatRow (b : Fin 512) (s : Fin 200) : Fin 102400 := ⟨b.val * 200 + s.val, by have := b.isLt; have := s.isLt; omega⟩

/-- The result at `(b, s, q)` is the gathered array at row `200 b + s`, column `q`. -/
theorem kernel_value_apply (idx : IVec S512x200 32) (x : FVec Ideal S168x2048 .f32) (b : Fin 512) (s : Fin 200) (q : Fin 2048) :
    Fold.kernelValue idx x (ix3 b s q)
      = Region1.gathered (Fold.hourColumn idx) (k0_pay2 (F := Ideal) x) (k0_pay3 (F := Ideal) x) (ix2 (flatRow b s) q) := by
  unfold Fold.kernelValue
  exact shapeCast_apply _ shapeCasts_S102400x2048_S512x200x2048 (ix3 b s q) (ix2 (flatRow b s) q) (by
    rw [Shape.rowMajor_val_two, Shape.rowMajor_val_three]; rfl)

/-- Over a table of reals the kernel's function of its arguments is the specification: the one-hot sum against the first
    table picks the softmax of the selected row, and the second table is zero. -/
theorem kernel_value_eq (idx : IVec S512x200 32) (x : FVec Ideal S168x2048 .f32) (hx : ∀ i, ∃ r : ℝ, x i = (r : EReal)) :
    Fold.kernelValue idx x = Spec.G idx x := by
  funext j
  obtain ⟨b, s, q, rfl⟩ : ∃ (b : Fin 512) (s : Fin 200) (q : Fin 2048), j = ix3 b s q := ⟨j 0, j 1, j 2, eq_ix3 j⟩
  rw [kernel_value_apply]
  unfold Region1.gathered Spec.G
  show (∑ k : Fin 168, Region1.weight (Fold.hourColumn idx (ix2 (flatRow b s) (0 : Fin 1))) k * k0_pay2 (F := Ideal) x (ix2 k q))
      + (∑ k : Fin 168, Region1.weight (Fold.hourColumn idx (ix2 (flatRow b s) (0 : Fin 1))) k * k0_pay3 (F := Ideal) x (ix2 k q))
    = Spec.prob x (Spec.rowOf (idx (ix2 b s))) q
  rw [hour_apply idx b s (flatRow b s) rfl, clip_word]
  simp only [weight_row, hi_apply, lo_apply x hx, mul_zero, Finset.sum_const_zero, add_zero]
  exact Spec.sum_indicator_mul _ _

end Cert.KernelIdeal.Bridge
end
-- ==== Proof.RefValue.lean ====
/-
  The reference program's result, read at an index, is the specification's.

  The reference computes the softmax of every row of the table — the row's maximum (a fold of max from -∞, then a
  maximum with -∞ again, which changes nothing), the exponentials of the entries shifted by it, their sum over the
  row, the quotient — and then gathers rows: result element (b, s, c) is the softmax table at row r, column c, where
  r is the index word at (b, s), 168 added when it is negative, read signed and clamped into [0, 167] (the gather
  clamps every start index so that its slice, one whole row, fits). For a non-negative index word the addition does
  not happen, so r is the word itself, clamped: the specification's row.
-/
import proofs.«423302_j71090298683718_3_alg».proof.Proof.Gen.ReferenceIdeal.Read
import proofs.«423302_j71090298683718_3_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-! ## The row maximum -/

/-- A row index with a column put back on the reduced axis is (row, column). -/
theorem lift_row (h : S168x2048.Reduces [1] S168) (k : Fin 168) (c : Fin (S168x2048.size 1)) :
    h.lift (ix1 k) c = ix2 k (⟨c.val, c.isLt⟩ : Fin 2048) := by
  funext a; apply Fin.ext
  fin_cases a <;> rfl

/-- The max-reduce over the columns, at row `k`, is the row's maximum. -/
theorem v0_apply (x1 : FVec Ideal S168x2048 .f32) (k : Fin 168) :
    val_main_v0 (F := Ideal) x1 (ix1 k) = Cert.Spec.rowMax x1 k := by
  have h : S168x2048.Reduces [1] S168 := by decide
  unfold val_main_v0
  rw [Host.reduce_eq_fold_single FloatOps.maximumf x1 _ reducesTo_S168x2048_S168_d1 h h_S_]
  unfold Cert.Spec.rowMax
  have hf : (x1 ∘ h.lift (ix1 k)) = fun c : Fin 2048 => x1 (ix2 k c) := funext fun c => congrArg x1 (lift_row h k c)
  exact congrArg (fun f => Finset.fold max (Ideal.ofBits .f32 0xFF800000#32) f (Finset.univ : Finset (Fin 2048))) hf

/-- The maximum of the -∞ broadcast with it is again the row's maximum. -/
theorem v2_apply (x1 : FVec Ideal S168x2048 .f32) (k : Fin 168) :
    val_main_v2 (F := Ideal) x1 (ix1 k) = Cert.Spec.rowMax x1 k := by
  rw [val_main_v2_apply, val_main_v1_apply, val_main_cst_0_apply, v0_apply]
  show max (Ideal.ofBits .f32 0xFF800000#32) _ = _
  rw [Cert.Spec.ofBits_neg_inf]
  exact max_eq_right bot_le

/-- Broadcast back over the columns. -/
theorem v4_apply (x1 : FVec Ideal S168x2048 .f32) (k : Fin 168) (c : Fin 2048) :
    val_main_v4 (F := Ideal) x1 (ix2 k c) = Cert.Spec.rowMax x1 k := by
  rw [val_main_v4_apply, val_main_v3_apply]
  have e : idx_main_v3 (idx_main_v4 (ix2 k c)) = ix1 k := funext fun a => Fin.ext (by match a with | ⟨0, _⟩ => rfl)
  rw [e, v2_apply]

/-! ## The shifted exponential, the row sum, the quotient -/

theorem v6_apply (x1 : FVec Ideal S168x2048 .f32) (k : Fin 168) (c : Fin 2048) :
    val_main_v6 (F := Ideal) x1 (ix2 k c) = Cert.Spec.expShift x1 k c := by
  rw [val_main_v6_apply, val_main_v5_apply, v4_apply]
  rfl

theorem v7_apply (x1 : FVec Ideal S168x2048 .f32) (k : Fin 168) :
    val_main_v7 (F := Ideal) x1 (ix1 k) = Cert.Spec.rowSum x1 k := by
  rw [val_main_v7_apply, val_main_cst_1_apply]
  have h0 : (FloatOps.ofBits .f32 0x00000000#32 : Ideal .f32) = 0 := by
    show Ideal.ofBits .f32 0x00000000#32 = 0
    simp [Ideal.ofBits, Ideal.ieee]
  rw [h0, zero_add]
  unfold Cert.Spec.rowSum
  refine Finset.sum_congr rfl fun c _ => ?_
  have e : idx_main_v7 (ix1 k) c = ix2 k c :=
    funext fun a => Fin.ext (by match a with | ⟨0, _⟩ => rfl | ⟨1, _⟩ => rfl)
  rw [e, v6_apply]

/-- The softmax table at (k, c). -/
theorem v10_apply (x1 : FVec Ideal S168x2048 .f32) (k : Fin 168) (c : Fin 2048) :
    val_main_v10 (F := Ideal) x1 (ix2 k c) = Cert.Spec.prob x1 k c := by
  rw [val_main_v10_apply, v6_apply, val_main_v9_apply, val_main_v8_apply]
  have e : idx_main_v8 (idx_main_v9 (ix2 k c)) = ix1 k := funext fun a => Fin.ext (by match a with | ⟨0, _⟩ => rfl)
  rw [e, v7_apply]
  rfl

/-! ## The index: a non-negative word is not shifted -/

theorem v15_apply (x0 : IVec S512x200 32) (hnn : ∀ i, 0 ≤ (x0 i).toInt) (i : S512x200.Idx) :
    val_main_v15 (F := Ideal) x0 i = x0 i := by
  rw [val_main_v15_apply, val_main_v12_apply, val_main_v11_apply, val_main_c_apply]
  have hc : IntOp.cmpi .slt (x0 i) 0#32 = 0#1 := by
    have := hnn i
    unfold IntOp.cmpi
    simp only [BitVec.slt]
    have h0 : (0#32 : BitVec 32).toInt = 0 := by decide
    rw [h0, decide_eq_false (by omega)]
    rfl
  rw [hc, select_zero]

/-! ## The gather -/

/-- The gather reads the operand's row at the start index, signed and clamped into [0, 167], at the result's last
    coordinate. -/
theorem gather_apply {α : Type} (x : S168x2048.Idx → α) (idx : IVec S512x200x1 32) (b : Fin 512) (s : Fin 200) (c : Fin 2048) :
    Host.gather gather_S168x2048_S512x200x1_S512x200x2048_2_0_n_n_0_2_12048 x idx (ix3 b s c)
      = x (ix2 (Cert.Spec.rowOf (idx (ix3 b s (0 : Fin 1)))) c) := by
  unfold Host.gather
  congr 1
  funext a
  refine Fin.ext ?_
  match a with
  | ⟨0, _⟩ =>
    -- the collapsed axis: the clamped start index alone
    show gather_S168x2048_S512x200x1_S512x200x2048_2_0_n_n_0_2_12048.start (ix3 b s c) idx 0
        + gather_S168x2048_S512x200x1_S512x200x2048_2_0_n_n_0_2_12048.batchCoord (ix3 b s c) 0
        + gather_S168x2048_S512x200x1_S512x200x2048_2_0_n_n_0_2_12048.offCoord (ix3 b s c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S168x2048_S512x200x1_S512x200x2048_2_0_n_n_0_2_12048.startIndexMap from
      List.mem_singleton.mpr rfl)]
    have hsi : gather_S168x2048_S512x200x1_S512x200x2048_2_0_n_n_0_2_12048.siIdx (ix3 b s c)
        ⟨List.idxOf (0 : Fin 2) gather_S168x2048_S512x200x1_S512x200x2048_2_0_n_n_0_2_12048.startIndexMap,
          List.idxOf_lt_length_iff.2 (List.mem_singleton.mpr rfl)⟩ = ix3 b s (0 : Fin 1) := by
      funext e; refine Fin.ext ?_
      match e with
      | ⟨0, _⟩ => rfl
      | ⟨1, _⟩ => rfl
      | ⟨2, _⟩ => rfl
    rw [hsi]
    rfl
  | ⟨1, _⟩ =>
    -- the offset axis: no start index, the result's last coordinate
    show gather_S168x2048_S512x200x1_S512x200x2048_2_0_n_n_0_2_12048.start (ix3 b s c) idx 1
        + gather_S168x2048_S512x200x1_S512x200x2048_2_0_n_n_0_2_12048.batchCoord (ix3 b s c) 1
        + gather_S168x2048_S512x200x1_S512x200x2048_2_0_n_n_0_2_12048.offCoord (ix3 b s c) 1 = c.val
    rw [GatherDims.batchCoord_eq_zero _ _ _ List.not_mem_nil]
    have hst : gather_S168x2048_S512x200x1_S512x200x2048_2_0_n_n_0_2_12048.start (ix3 b s c) idx 1 = 0 := by
      unfold GatherDims.start
      rw [dif_neg (show (1 : Fin 2) ∉ gather_S168x2048_S512x200x1_S512x200x2048_2_0_n_n_0_2_12048.startIndexMap from by decide)]
    have hk : (1 : Fin 2) ∈ gather_S168x2048_S512x200x1_S512x200x2048_2_0_n_n_0_2_12048.sKept :=
      (GatherDims.mem_sKept _ _).mpr ⟨by decide, List.not_mem_nil⟩
    rw [hst]
    unfold GatherDims.offCoord
    rw [dif_pos hk]
    have hi : List.idxOf (1 : Fin 2) gather_S168x2048_S512x200x1_S512x200x2048_2_0_n_n_0_2_12048.sKept = 0 := by decide
    have e : ∀ (n : Nat) (hn : n < gather_S168x2048_S512x200x1_S512x200x2048_2_0_n_n_0_2_12048.offsetDims.length), n = 0 →
        gather_S168x2048_S512x200x1_S512x200x2048_2_0_n_n_0_2_12048.offsetDims[n]'hn = (2 : Fin 3) := by
      intro n hn h0; subst h0; rfl
    rw [e _ _ hi]
    show 0 + 0 + c.val = c.val
    omega

theorem ref_value (x0 : IVec Cert.ReferenceIdeal.S512x200 32) (x1 : FVec Ideal Cert.ReferenceIdeal.S168x2048 .f32)
    (hnn : ∀ i, 0 ≤ (x0 i).toInt) :
    Cert.ReferenceIdeal.Read.val_main_v17 (F := Ideal) x0 x1 = Cert.Spec.G x0 x1 := by
  funext j
  obtain ⟨b, s, c, rfl⟩ : ∃ (b : Fin 512) (s : Fin 200) (c : Fin 2048), j = ix3 b s c := ⟨j 0, j 1, j 2, eq_ix3 j⟩
  unfold val_main_v17
  rw [gather_apply, v10_apply]
  unfold Cert.Spec.G
  rw [val_main_v16_apply, v15_apply x0 hnn]
  have e : idx_main_v16 (ix3 b s (0 : Fin 1)) = ix2 b s :=
    funext fun a => Fin.ext (by match a with | ⟨0, _⟩ => rfl | ⟨1, _⟩ => rfl)
  rw [e]

end Cert.ReferenceIdeal.RefValue

end
-- ==== Proof.PreDecode.lean ====
/-
  What the precondition says of the inputs.

  The printed precondition is the conjunction of three "for all" tests, each a reduction by "and" over every element:
  |x| < +∞ for every entry x of the table, 0 ≤ w for every index word w read signed, and w < 168 for every index word.
  When the function's value is 1, each reduction is 1, so each of its elements is 1. An extended real whose absolute
  value max(x, -x) lies strictly below +∞ is neither +∞ nor -∞ (whose negation is +∞): it is a real number. A signed
  comparison's word is 1 exactly when the comparison holds of the signed values, and the words of 0 and 168 have the
  signed values 0 and 168.
-/
import proofs.«423302_j71090298683718_3_alg».proof.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreDecode

open Idealize.ShloMosaic Idealize.ShloMosaic.StableHlo Cert.Pre_finite_inputs

/-- The rank-zero shape has one index. -/
instance : Subsingleton S_.Idx := ⟨fun a b => funext fun d => d.elim0⟩

/-- An extended real with max(x, -x) strictly below +∞ is a real number. -/
theorem real_of_abs_lt (x : EReal)
    (h : FloatOps.cmpf .olt (FloatOps.absf (x : Ideal .f32)) (Ideal.ofBits .f32 0x7F800000#32) = 1#1) :
    ∃ r : ℝ, x = (r : EReal) := by
  have ht : Ideal.ofBits .f32 0x7F800000#32 = (⊤ : EReal) := by simp [Ideal.ofBits, Ideal.ieee]
  change Ideal.cmp .olt (max x (-x)) (Ideal.ofBits .f32 0x7F800000#32) = 1#1 at h
  rw [ht] at h
  have hlt : max x (-x) < ⊤ := by
    simpa [Ideal.cmp, Predicate.ofBool_eq_one_iff] using h
  induction x using EReal.rec with
  | bot => simp at hlt
  | top => simp at hlt
  | coe r => exact ⟨r, rfl⟩

theorem of_pre [Cert.Pre_finite_inputs.Facts] (idx : IVec Cert.Pre_finite_inputs.S512x200 32) (x : FVec Ideal Cert.Pre_finite_inputs.S168x2048 .f32)
    (h : Cert.Pre_finite_inputs.fn (F := Ideal) idx x = fun _ => 1#1) :
    (∀ i, ∃ r : ℝ, x i = (r : EReal)) ∧ (∀ i, 0 ≤ (idx i).toInt ∧ (idx i).toInt < 168) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  refine ⟨fun i => ?_, fun i => ⟨?_, ?_⟩⟩
  · -- every entry's absolute value is below +∞
    have e : FloatOps.cmpf .olt (FloatOps.absf (x i : Ideal .f32))
        (broadcastInDim S168x2048 ![] Facts.bcast_S_S168x2048 (constant (F := Ideal) S_ .f32 0x7F800000#32) i) = 1#1 :=
      Host.reduce_andi_all _ _ _ _ _ h1 i
    rw [Predicate.bcast_scalar _ Facts.h_S_] at e
    exact real_of_abs_lt (x i) e
  · -- every index word is at least the word of 0, read signed
    have e : IntOp.cmpi .sge (idx i) (broadcastInDim S512x200 ![] Facts.bcast_S_S512x200 (constantI S_ 32 0#32) i) = 1#1 :=
      Host.reduce_andi_all _ _ _ _ _ h2 i
    rw [Predicate.bcast_scalar _ Facts.h_S_] at e
    have hle : (0#32 : BitVec 32).toInt ≤ (idx i).toInt := IntOp.cmpi_sge.1 e
    have hz : (0#32 : BitVec 32).toInt = 0 := by decide
    omega
  · -- every index word is below the word of 168, read signed
    have e : IntOp.cmpi .slt (idx i) (broadcastInDim S512x200 ![] Facts.bcast_S_S512x200 (constantI S_ 32 168#32) i) = 1#1 :=
      Host.reduce_andi_all _ _ _ _ _ h3 i
    rw [Predicate.bcast_scalar _ Facts.h_S_] at e
    have hlt : (idx i).toInt < (168#32 : BitVec 32).toInt := IntOp.cmpi_slt.1 e
    have hz : (168#32 : BitVec 32).toInt = 168 := by decide
    omega

end Cert.PreDecode

end
-- ==== Proof.lean ====
/-
  The certificate's claims, assembled.

  The kernel: a softmax of the [168, 2048] table in one pallas_call, written out as a pair of bf16 tables (the softmax
  narrowed, and the softmax minus its narrowing, narrowed); the index array clipped into [0, 167] and made a column; a second
  pallas_call over 100 blocks of 1024 rows that multiplies a one-hot matrix of the hour words with each table and adds the
  two products; a reshape to [512, 200, 2048]. The reference: the softmax on the host, then a gather of its rows at the
  indices (a negative index shifted by 168, every start index clamped into the table).

  Over the extended reals a change of float format is the identity, so the first table is the softmax and the second is
  the softmax minus itself, which is zero wherever the softmax is a real number: it is, for a table of finite entries
  (the precondition). A one-hot sum against the softmax picks the row the clipped index names. The precondition also
  says every index lies in [0, 168): only its lower half is used — a nonnegative index is not shifted by the reference, and
  above 167 both programs clamp —, so both sides read the softmax of the row `min idx 167`: the specification `Spec.G`.

  The frames of the kernel and of its idealization are the generated ones; the reference's frame is its generated run with
  the result dropped; the idealization's one rewrite (widening a narrowed value back is the value itself, at the ideal
  instance) is the rule's own statement.
-/
import proofs.«423302_j71090298683718_3_alg».proof.Defs
import proofs.«423302_j71090298683718_3_alg».proof.Proof.Gen.Kernel
import proofs.«423302_j71090298683718_3_alg».proof.Proof.Gen.Kernel.Skeleton
import proofs.«423302_j71090298683718_3_alg».proof.Proof.Gen.Kernel.Launch
import proofs.«423302_j71090298683718_3_alg».proof.Proof.Gen.Kernel.Points
import proofs.«423302_j71090298683718_3_alg».proof.Proof.Gen.Kernel.Frame
import proofs.«423302_j71090298683718_3_alg».proof.Proof.Gen.KernelIdeal
import proofs.«423302_j71090298683718_3_alg».proof.Proof.Gen.KernelIdeal.Skeleton
import proofs.«423302_j71090298683718_3_alg».proof.Proof.Gen.KernelIdeal.Launch
import proofs.«423302_j71090298683718_3_alg».proof.Proof.Gen.KernelIdeal.Points
import proofs.«423302_j71090298683718_3_alg».proof.Proof.Gen.KernelIdeal.Frame
import proofs.«423302_j71090298683718_3_alg».proof.Proof.Gen.ReferenceIdeal
import proofs.«423302_j71090298683718_3_alg».proof.Proof.Gen.Pre_finite_inputs
import proofs.«423302_j71090298683718_3_alg».proof.Proof.Gen.ReferenceIdeal.Run
import proofs.«423302_j71090298683718_3_alg».proof.Proof.Gen.ReferenceIdeal.Read
import proofs.«423302_j71090298683718_3_alg».proof.Proof.KernelRun
import proofs.«423302_j71090298683718_3_alg».proof.Proof.KernelValue
import proofs.«423302_j71090298683718_3_alg».proof.Proof.Bridge
import proofs.«423302_j71090298683718_3_alg».proof.Proof.RefValue
import proofs.«423302_j71090298683718_3_alg».proof.Proof.PreDecode
import Idealize.ShloMosaic.Adequacy
import Idealize.ShloMosaic.Init

noncomputable section

namespace Cert.Proof

open Idealize.ShloMosaic Idealize.ShloMosaic.TcCoe Idealize.SL.Sem

/-- The kernel as printed runs and keeps its arguments: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its generated run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The one rewrite of the idealization: a value narrowed to bf16 and widened back is, at the ideal instance, the value. -/
theorem preserves : Cert.preserves_Kernel_KernelIdeal :=
  IdealRules.truncf_extf.statement Cert.KernelIdeal.S168x2048 .f32 .bf16

/-- Both idealized programs end with the specification's array of the shared arguments. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · -- the kernel: the result buffer at the last boundary's contents, which is the kernel's function of the arguments,
    -- which is the specification over a table of reals
    refine (θ_run Cert.KernelIdeal.defs _ _).mono (fun r h c => ⟨?_, (h c).2.1, (h c).2.2⟩) (Cert.KernelIdeal.Run.run_main m ρ)
    obtain ⟨hx, -⟩ := Cert.PreDecode.of_pre _ _ (hpre c)
    exact ((h c).1.trans (Cert.KernelIdeal.Fold.result_value m ρ c)).trans
      (Cert.KernelIdeal.Bridge.kernel_value_eq _ _ hx)
  · -- the reference: its run's term is the specification for nonnegative indices
    refine (θ_run Cert.ReferenceIdeal.defs _ _).mono (fun r h c => ⟨?_, (h c).2⟩)
      (Cert.ReferenceIdeal.Value.run (F := Ideal) m' ρ')
    obtain ⟨-, hidx⟩ := Cert.PreDecode.of_pre _ _ (hpre c)
    rw [(h c).1, Cert.ReferenceIdeal.Read.val_main_v17_eq, (hagree c).1, (hagree c).2]
    exact Cert.ReferenceIdeal.RefValue.ref_value _ _ (fun i => (hidx i).1)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
